-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024x1024 .f32) (main_v63 : IVec S_ 1) (main_v67 : IVec S_ 1) : IVec S_ 1 :=
  let main_v68 : IVec S_ 1 := andi main_v63 main_v67
  let main_v69 : FVec F S1024x1024 .f32 := Host.absf main_arg14
  let main_cst_26 : FVec F S_ .f32 := constant S_ .f32 0x7F800000#32
  let main_v70 : FVec F S1024x1024 .f32 := broadcastInDim S1024x1024 ![] bcast_S_S1024x1024 main_cst_26
  let main_v71 : IVec S1024x1024 1 := cmpf .olt main_v69 main_v70
  let main_c_27 : IVec S_ 1 := constantI S_ 1 1#1
  let main_v72 : IVec S_ 1 := (fun x v => Host.reduce IntOp.andi x v reducesTo_S1024x1024_S_d0_1 h_S_) main_v71 main_c_27
  let main_v73 : IVec S_ 1 := andi main_v68 main_v72
  main_v73

def fn_part3 {F : FTy → Type} [FloatOps F] (main_arg11 : FVec F S1024x1024 .f32) (main_arg12 : FVec F S1024x1024 .f32) (main_arg13 : FVec F S1024 .f32) (main_arg14 : FVec F S1024x1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_v63 main_v67

def fn_part2 {F : FTy → Type} [FloatOps F] (main_arg7 : FVec F S1024 .f32) (main_arg8 : FVec F S1024x1024 .f32) (main_arg9 : FVec F S1024x1024 .f32) (main_arg10 : FVec F S1024 .f32) (main_arg11 : FVec F S1024x1024 .f32) (main_arg12 : FVec F S1024x1024 .f32) (main_arg13 : FVec F S1024 .f32) (main_arg14 : FVec F S1024x1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_v48 main_v49 main_v50

def fn_part1 {F : FTy → Type} [FloatOps F] (main_arg4 : FVec F S1024 .f32) (main_arg5 : FVec F S1024x1024 .f32) (main_arg6 : FVec F S1024x1024 .f32) (main_arg7 : FVec F S1024 .f32) (main_arg8 : FVec F S1024x1024 .f32) (main_arg9 : FVec F S1024x1024 .f32) (main_arg10 : FVec F S1024 .f32) (main_arg11 : FVec F S1024x1024 .f32) (main_arg12 : FVec F S1024x1024 .f32) (main_arg13 : FVec F S1024 .f32) (main_arg14 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1024 .f32) (main_arg5 : FVec F S1024x1024 .f32) (main_arg6 : FVec F S1024x1024 .f32) (main_arg7 : FVec F S1024 .f32) (main_arg8 : FVec F S1024x1024 .f32) (main_arg9 : FVec F S1024x1024 .f32) (main_arg10 : FVec F S1024 .f32) (main_arg11 : FVec F S1024x1024 .f32) (main_arg12 : FVec F S1024x1024 .f32) (main_arg13 : FVec F S1024 .f32) (main_arg14 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1x4096 : Shape := ⟨2, ![1, 4096]⟩
abbrev S512x1024 : Shape := ⟨2, ![512, 1024]⟩
abbrev S512x4096 : Shape := ⟨2, ![512, 4096]⟩

abbrev nBuf : Space → Nat
  | .hbm => 23
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S4096x1024, .f32⟩
  | .hbm, ⟨16, _⟩ => ⟨S4096x1024, .bf16⟩
  | .hbm, ⟨17, _⟩ => ⟨S4096x1024, .f32⟩
  | .hbm, ⟨18, _⟩ => ⟨S4096x1024, .bf16⟩
  | .hbm, ⟨19, _⟩ => ⟨S4096, .f32⟩
  | .hbm, ⟨20, _⟩ => ⟨S1x4096, .f32⟩
  | .hbm, ⟨21, _⟩ => ⟨S8192x1024, .f32⟩
  | .hbm, ⟨22, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S4096x1024, .bf16⟩
  | .local _ .vmem, ⟨7, _⟩ => ⟨S4096x1024, .bf16⟩
  | .local _ .vmem, ⟨8, _⟩ => ⟨S1x4096, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x1024_S1024x1024_S1024x1024_S1024x1024_S4096x1024_d0 : Shape.Concatenates [S1024x1024, S1024x1024, S1024x1024, S1024x1024] S4096x1024 0
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  slices_S512x4096_o0_0_S512x1024 : S512x4096.Slices ![0, 0] S512x1024
  slices_S512x4096_o0_1024_S512x1024 : S512x4096.Slices ![0, 1024] S512x1024
  slices_S512x4096_o0_2048_S512x1024 : S512x4096.Slices ![0, 2048] S512x1024
  slices_S512x4096_o0_3072_S512x1024 : S512x4096.Slices ![0, 3072] S512x1024
  dot_S512x1024_S4096x1024_S512x4096_1_1_0_0_n_n_wf : DotDims.WF S512x1024 S4096x1024 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .f32 = 32 ∨ (Rect.block (s := S8192x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S8192x1024.size a
  hwx0_6 : ∀ i : grid0.Coords, EltTy.bits .f32 = 32 ∨ (Rect.block (s := S8192x1024) S512x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .f32 = 32 ∨ (Rect.block (s := S8192x1024) S512x1024.size (cc0_transform_7 i) (hinb0_7 i)).WholeWords (EltTy.packing .f32)

variable [Facts₀]

def dot_S512x1024_S4096x1024_S512x4096_1_1_0_0_n_n : DotDims S512x1024 S4096x1024 S512x4096 where
  lhsContracting := [1]
  rhsContracting := [1]
  lhsNonContracting := [0]
  rhsNonContracting := [0]
  lhsBatch := []
  rhsBatch := []
  wf := dot_S512x1024_S4096x1024_S512x4096_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S512x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S8192x4096 : Shape := ⟨2, ![8192, 4096]⟩
abbrev S1x4096 : Shape := ⟨2, ![1, 4096]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S4096x1024, .f32⟩
  | .hbm, ⟨16, _⟩ => ⟨S4096x1024, .f32⟩
  | .hbm, ⟨17, _⟩ => ⟨S4096, .f32⟩
  | .hbm, ⟨18, _⟩ => ⟨S1024x4096, .f32⟩
  | .hbm, ⟨19, _⟩ => ⟨S8192x4096, .f32⟩
  | .hbm, ⟨20, _⟩ => ⟨S1024x4096, .f32⟩
  | .hbm, ⟨21, _⟩ => ⟨S8192x4096, .f32⟩
  | .hbm, ⟨22, _⟩ => ⟨S8192x4096, .f32⟩
  | .hbm, ⟨23, _⟩ => ⟨S1x4096, .f32⟩
  | .hbm, ⟨24, _⟩ => ⟨S8192x4096, .f32⟩
  | .hbm, ⟨25, _⟩ => ⟨S8192x4096, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_cst_0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  transposes_S4096x1024_S1024x4096_1_0 : S4096x1024.Transposes [1, 0] S1024x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x1024_S1024x4096_S8192x4096_1_0_0_1_n_n_wf : DotDims.WF S8192x1024 S1024x4096 S8192x4096 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.KernelFrame.lean ====
/-
  The frame of the program `Kernel`, at any float instance `F`.

  @main is six host operations and then ONE pipelined region.  The host operations stack the four input-weight
  matrices into one 4096 x 1024 matrix and narrow it to bf16, do the same for the four recurrent-weight matrices,
  stack the four bias vectors into one vector of 4096 entries and give it a leading unit axis.  None of them
  writes an argument array, so the region finds every argument as launched (`V_of_not_written`).

  The region runs the cell body at the 16 points of a one-axis grid.  Point `t` is handed rows
  `512 t .. 512 t + 511` of `x`, `h` and `c` (windows 0, 1, 2), the two stacked weight matrices and the bias row
  whole (windows 3, 4, 5: fetched once, their block index never moves), and writes rows `512 t ..` of the two
  results (windows 6 and 7).  The body reads its six input blocks, computes the gate pre-activations, the new cell
  state and the new hidden state, and stores each into its output block whole: what an output block holds after
  the body is ONE piece covering it (`outH`, `outC`).  The body also reads the two output blocks before it stores
  them; nothing depends on what it finds there.

  Proof data: every input block is left in place, each output block holds the body's value of the input blocks at
  that point.  The run is the library's frame run of a region whose invariant is the class's (`Pipeline.θ_run_frame`),
  and the frame claim reads the argument arrays off its post: `x`, `h`, `c` are staged inputs, the twelve others
  are buffers no window stages.
-/
import proofs.«147784_j41059887349770_1_alg».proof.Proof.Gen.Kernel.Launch
import proofs.«147784_j41059887349770_1_alg».proof.Proof.Gen.Kernel.Skeleton
import proofs.«147784_j41059887349770_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the six host operations. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- @main up to the region: the host operations, then the region's entry. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write `main_v0 … main_v5` and nothing else: any other buffer is as launched. -/
theorem V_of_not_written (c : Dev nD) (b : Ref sig .tc) (h0 : b ≠ main_v0) (h1 : b ≠ main_v1) (h2 : b ≠ main_v2)
    (h3 : b ≠ main_v3) (h4 : b ≠ main_v4) (h5 : b ≠ main_v5) : V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes, Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5⟩))

theorem V_main_arg0 (c : Dev nD) : V m c main_arg0 = m ((c : Thread nD τ).loc main_arg0) :=
  V_of_not_written m c main_arg0 (by decide) (by decide) (by decide) (by decide) (by decide) (by decide)
theorem V_main_arg1 (c : Dev nD) : V m c main_arg1 = m ((c : Thread nD τ).loc main_arg1) :=
  V_of_not_written m c main_arg1 (by decide) (by decide) (by decide) (by decide) (by decide) (by decide)
theorem V_main_arg2 (c : Dev nD) : V m c main_arg2 = m ((c : Thread nD τ).loc main_arg2) :=
  V_of_not_written m c main_arg2 (by decide) (by decide) (by decide) (by decide) (by decide) (by decide)
theorem V_main_arg3 (c : Dev nD) : V m c main_arg3 = m ((c : Thread nD τ).loc main_arg3) :=
  V_of_not_written m c main_arg3 (by decide) (by decide) (by decide) (by decide) (by decide) (by decide)
theorem V_main_arg4 (c : Dev nD) : V m c main_arg4 = m ((c : Thread nD τ).loc main_arg4) :=
  V_of_not_written m c main_arg4 (by decide) (by decide) (by decide) (by decide) (by decide) (by decide)
theorem V_main_arg5 (c : Dev nD) : V m c main_arg5 = m ((c : Thread nD τ).loc main_arg5) :=
  V_of_not_written m c main_arg5 (by decide) (by decide) (by decide) (by decide) (by decide) (by decide)
theorem V_main_arg6 (c : Dev nD) : V m c main_arg6 = m ((c : Thread nD τ).loc main_arg6) :=
  V_of_not_written m c main_arg6 (by decide) (by decide) (by decide) (by decide) (by decide) (by decide)
theorem V_main_arg7 (c : Dev nD) : V m c main_arg7 = m ((c : Thread nD τ).loc main_arg7) :=
  V_of_not_written m c main_arg7 (by decide) (by decide) (by decide) (by decide) (by decide) (by decide)
theorem V_main_arg8 (c : Dev nD) : V m c main_arg8 = m ((c : Thread nD τ).loc main_arg8) :=
  V_of_not_written m c main_arg8 (by decide) (by decide) (by decide) (by decide) (by decide) (by decide)
theorem V_main_arg9 (c : Dev nD) : V m c main_arg9 = m ((c : Thread nD τ).loc main_arg9) :=
  V_of_not_written m c main_arg9 (by decide) (by decide) (by decide) (by decide) (by decide) (by decide)
theorem V_main_arg10 (c : Dev nD) : V m c main_arg10 = m ((c : Thread nD τ).loc main_arg10) :=
  V_of_not_written m c main_arg10 (by decide) (by decide) (by decide) (by decide) (by decide) (by decide)
theorem V_main_arg11 (c : Dev nD) : V m c main_arg11 = m ((c : Thread nD τ).loc main_arg11) :=
  V_of_not_written m c main_arg11 (by decide) (by decide) (by decide) (by decide) (by decide) (by decide)
theorem V_main_arg12 (c : Dev nD) : V m c main_arg12 = m ((c : Thread nD τ).loc main_arg12) :=
  V_of_not_written m c main_arg12 (by decide) (by decide) (by decide) (by decide) (by decide) (by decide)
theorem V_main_arg13 (c : Dev nD) : V m c main_arg13 = m ((c : Thread nD τ).loc main_arg13) :=
  V_of_not_written m c main_arg13 (by decide) (by decide) (by decide) (by decide) (by decide) (by decide)
theorem V_main_arg14 (c : Dev nD) : V m c main_arg14 = m ((c : Thread nD τ).loc main_arg14) :=
  V_of_not_written m c main_arg14 (by decide) (by decide) (by decide) (by decide) (by decide) (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: a point that does
    not fetch it has the block index of the point before. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: a point that does
    not fetch it has the block index of the point before. -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: a point that does
    not fetch it has the block index of the point before. -/
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: a point that does
    not fetch it has the block index of the point before. -/
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not: a point that does
    not fetch it has the block index of the point before. -/
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not: a point that does
    not fetch it has the block index of the point before. -/
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after a frame run -/

/-- For any proof data whose arrays are the region-entry contents, a run to the library's frame post leaves every
    argument array as launched: `x`, `h`, `c` are staged inputs, the other twelve are staged by no window. -/
theorem args_of (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).1 0).trans (((dats 0 c).arrAt_in 0 rfl _).trans ((hA c 0).trans (V_main_arg0 m c))),
   ((h c).1 1).trans (((dats 0 c).arrAt_in 1 rfl _).trans ((hA c 1).trans (V_main_arg1 m c))),
   ((h c).1 2).trans (((dats 0 c).arrAt_in 2 rfl _).trans ((hA c 2).trans (V_main_arg2 m c))),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   ((h c).2 main_arg5 (Pipeline.mem_restRefs_of main_arg5 (by decide) (by decide))).trans (V_main_arg5 m c),
   ((h c).2 main_arg6 (Pipeline.mem_restRefs_of main_arg6 (by decide) (by decide))).trans (V_main_arg6 m c),
   ((h c).2 main_arg7 (Pipeline.mem_restRefs_of main_arg7 (by decide) (by decide))).trans (V_main_arg7 m c),
   ((h c).2 main_arg8 (Pipeline.mem_restRefs_of main_arg8 (by decide) (by decide))).trans (V_main_arg8 m c),
   ((h c).2 main_arg9 (Pipeline.mem_restRefs_of main_arg9 (by decide) (by decide))).trans (V_main_arg9 m c),
   ((h c).2 main_arg10 (Pipeline.mem_restRefs_of main_arg10 (by decide) (by decide))).trans (V_main_arg10 m c),
   ((h c).2 main_arg11 (Pipeline.mem_restRefs_of main_arg11 (by decide) (by decide))).trans (V_main_arg11 m c),
   ((h c).2 main_arg12 (Pipeline.mem_restRefs_of main_arg12 (by decide) (by decide))).trans (V_main_arg12 m c),
   ((h c).2 main_arg13 (Pipeline.mem_restRefs_of main_arg13 (by decide) (by decide))).trans (V_main_arg13 m c),
   ((h c).2 main_arg14 (Pipeline.mem_restRefs_of main_arg14 (by decide) (by decide))).trans (V_main_arg14 m c)⟩

/-! ## The body's accesses -/

/-- The whole 512 x 1024 block, the whole stacked weight matrix, the whole bias row. -/
abbrev rBlk : Rect S512x1024 := Rect.unit (s := S512x1024) ![0, 0] S512x1024.size inb_S512x1024_S512x1024_0_0
abbrev rWts : Rect S4096x1024 := Rect.unit (s := S4096x1024) ![0, 0] S4096x1024.size inb_S4096x1024_S4096x1024_0_0
abbrev rBias : Rect S1x4096 := Rect.unit (s := S1x4096) ![0, 0] S1x4096.size inb_S1x4096_S1x4096_0_0

/-! ## What the body leaves in each output block -/

/-- The new hidden state's block after the body, from the six input blocks: one store, of the whole block. -/
def outH (x h cc : Vec F S512x1024 .f32) (wx uh : Vec F S4096x1024 .bf16) (b : Vec F S1x4096 .f32) : Vec F S512x1024 .f32 :=
  View.canon [⟨rBlk, k0_pay3 (View.ld x rBlk) (View.ld h rBlk) (View.ld wx rWts) (View.ld uh rWts) (View.ld b rBias) (View.ld cc rBlk)⟩]

/-- The new cell state's block after the body. -/
def outC (x h cc : Vec F S512x1024 .f32) (wx uh : Vec F S4096x1024 .bf16) (b : Vec F S1x4096 .f32) : Vec F S512x1024 .f32 :=
  View.canon [⟨rBlk, k0_pay2 (View.ld x rBlk) (View.ld h rBlk) (View.ld wx rWts) (View.ld uh rWts) (View.ld b rBias) (View.ld cc rBlk)⟩]

/-- One store of the whole block covers the block. -/
theorem cover_blk (p0 : Vec F S512x1024 .f32) (y : S512x1024.Idx) :
    ∃ pc ∈ ([⟨rBlk, p0⟩] : List (View.Piece (Elt F) S512x1024 .f32)), y ∈ pc.1.set :=
  View.cover_of_tiled [⟨rBlk, p0⟩] S512x1024.size (by rfl) y

/-! ## The body's triple -/

set_option maxHeartbeats 1000000 in
/-- The body on whole staging memrefs, the six inputs' at read contents and the two outputs' at anything, runs to the
    continuation holding the inputs' as they were and the outputs' at `outH` and `outC` of the inputs'. -/
theorem sound_kernel (c : Dev nD) (E : Set ℕ) (i : grid0.Coords)
    (arg1 : Memref sig .tc .vmem S512x1024 .f32) (harg1 : arg1.IsWhole) (arg2 : Memref sig .tc .vmem S512x1024 .f32) (harg2 : arg2.IsWhole)
    (arg3 : Memref sig .tc .vmem S512x1024 .f32) (harg3 : arg3.IsWhole) (arg4 : Memref sig .tc .vmem S4096x1024 .bf16) (harg4 : arg4.IsWhole)
    (arg5 : Memref sig .tc .vmem S4096x1024 .bf16) (harg5 : arg5.IsWhole) (arg6 : Memref sig .tc .vmem S1x4096 .f32) (harg6 : arg6.IsWhole)
    (arg7 : Memref sig .tc .vmem S512x1024 .f32) (harg7 : arg7.IsWhole) (arg8 : Memref sig .tc .vmem S512x1024 .f32) (harg8 : arg8.IsWhole)
    (x h cc : Vec F S512x1024 .f32) (wx uh : Vec F S4096x1024 .bf16) (b : Vec F S1x4096 .f32) (K : PUnit → sProp 𝕄) :
    iprop(owns (c : Thread nD τ) arg1 fullShare x ∗ owns (c : Thread nD τ) arg2 fullShare h ∗ owns (c : Thread nD τ) arg3 fullShare cc
        ∗ owns (c : Thread nD τ) arg4 fullShare wx ∗ owns (c : Thread nD τ) arg5 fullShare uh ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h ∗ owns (c : Thread nD τ) arg3 fullShare cc
            ∗ owns (c : Thread nD τ) arg4 fullShare wx ∗ owns (c : Thread nD τ) arg5 fullShare uh ∗ owns (c : Thread nD τ) arg6 fullShare b
            ∗ owns (c : Thread nD τ) arg7 fullShare (outH x h cc wx uh b) ∗ owns (c : Thread nD τ) arg8 fullShare (outC x h cc wx uh b)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_blk _)
  iexists _; isplitr
  swap; · iexact H8
  ipureintro
  exact View.read_writes_eq_canon _ _ _ (cover_blk _)

/-! ## The pipeline's proof data -/

/-- On core `c`: the arrays as the region finds them; after the body at point `t` each input's buffer at its block,
    the two outputs' at the body's values of the six input blocks; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_outH (c : Dev nD) (t : Fin cfg0.N) : (dats m 0 c).after 6 t = outH (iblk m c 0 t) (iblk m c 1 t) (iblk m c 2 t) (iblk m c 3 t) (iblk m c 4 t) (iblk m c 5 t) := by dsimp only [dats]
theorem after_outC (c : Dev nD) (t : Fin cfg0.N) : (dats m 0 c).after 7 t = outC (iblk m c 0 t) (iblk m c 1 t) (iblk m c 2 t) (iblk m c 3 t) (iblk m c 4 t) (iblk m c 5 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so `sound_kernel` applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_outH, after_outC]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every array of the pipeline
    at what the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run with the two results NAMED and every argument array as launched. -/
theorem run_named : θ_run defs (onTc (τ := τ) (main (F := F))) ⟨m, fun _ => 0, ρ⟩ (fun r => ∀ c : Dev nD,
      r.2.mem ((c.tc : Thread nD τ).loc main_v6_0) = (dats m 0 c).arrAt 6 cfg0.N
      ∧ r.2.mem ((c.tc : Thread nD τ).loc main_v6_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1 6, (h c).1 7, args_of m (dats m) (A_eq m) r h c⟩) (run_main m ρ)

/-- THE FRAME: the program runs to the end, nothing faults, and its fifteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => args_of m (dats m) (A_eq m) r h c) (run_main m ρ)

end Cert.Kernel.Cell

end
-- ==== Proof.KernelIdealFrame.lean ====
/-
  The frame of the program `KernelIdeal`, at any float instance `F`.

  @main is six host operations and then ONE pipelined region.  The host operations stack the four input-weight
  matrices into one 4096 x 1024 matrix and narrow it to bf16, do the same for the four recurrent-weight matrices,
  stack the four bias vectors into one vector of 4096 entries and give it a leading unit axis.  None of them
  writes an argument array, so the region finds every argument as launched (`V_of_not_written`).

  The region runs the cell body at the 16 points of a one-axis grid.  Point `t` is handed rows
  `512 t .. 512 t + 511` of `x`, `h` and `c` (windows 0, 1, 2), the two stacked weight matrices and the bias row
  whole (windows 3, 4, 5: fetched once, their block index never moves), and writes rows `512 t ..` of the two
  results (windows 6 and 7).  The body reads its six input blocks, computes the gate pre-activations, the new cell
  state and the new hidden state, and stores each into its output block whole: what an output block holds after
  the body is ONE piece covering it (`outH`, `outC`).  The body also reads the two output blocks before it stores
  them; nothing depends on what it finds there.

  Proof data: every input block is left in place, each output block holds the body's value of the input blocks at
  that point.  The run is the library's frame run of a region whose invariant is the class's (`Pipeline.θ_run_frame`),
  and the frame claim reads the argument arrays off its post: `x`, `h`, `c` are staged inputs, the twelve others
  are buffers no window stages.
-/
import proofs.«147784_j41059887349770_1_alg».proof.Proof.Gen.KernelIdeal.Launch
import proofs.«147784_j41059887349770_1_alg».proof.Proof.Gen.KernelIdeal.Skeleton
import proofs.«147784_j41059887349770_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the six host operations. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- @main up to the region: the host operations, then the region's entry. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write `main_v0 … main_v5` and nothing else: any other buffer is as launched. -/
theorem V_of_not_written (c : Dev nD) (b : Ref sig .tc) (h0 : b ≠ main_v0) (h1 : b ≠ main_v1) (h2 : b ≠ main_v2)
    (h3 : b ≠ main_v3) (h4 : b ≠ main_v4) (h5 : b ≠ main_v5) : V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes, Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5⟩))

theorem V_main_arg0 (c : Dev nD) : V m c main_arg0 = m ((c : Thread nD τ).loc main_arg0) :=
  V_of_not_written m c main_arg0 (by decide) (by decide) (by decide) (by decide) (by decide) (by decide)
theorem V_main_arg1 (c : Dev nD) : V m c main_arg1 = m ((c : Thread nD τ).loc main_arg1) :=
  V_of_not_written m c main_arg1 (by decide) (by decide) (by decide) (by decide) (by decide) (by decide)
theorem V_main_arg2 (c : Dev nD) : V m c main_arg2 = m ((c : Thread nD τ).loc main_arg2) :=
  V_of_not_written m c main_arg2 (by decide) (by decide) (by decide) (by decide) (by decide) (by decide)
theorem V_main_arg3 (c : Dev nD) : V m c main_arg3 = m ((c : Thread nD τ).loc main_arg3) :=
  V_of_not_written m c main_arg3 (by decide) (by decide) (by decide) (by decide) (by decide) (by decide)
theorem V_main_arg4 (c : Dev nD) : V m c main_arg4 = m ((c : Thread nD τ).loc main_arg4) :=
  V_of_not_written m c main_arg4 (by decide) (by decide) (by decide) (by decide) (by decide) (by decide)
theorem V_main_arg5 (c : Dev nD) : V m c main_arg5 = m ((c : Thread nD τ).loc main_arg5) :=
  V_of_not_written m c main_arg5 (by decide) (by decide) (by decide) (by decide) (by decide) (by decide)
theorem V_main_arg6 (c : Dev nD) : V m c main_arg6 = m ((c : Thread nD τ).loc main_arg6) :=
  V_of_not_written m c main_arg6 (by decide) (by decide) (by decide) (by decide) (by decide) (by decide)
theorem V_main_arg7 (c : Dev nD) : V m c main_arg7 = m ((c : Thread nD τ).loc main_arg7) :=
  V_of_not_written m c main_arg7 (by decide) (by decide) (by decide) (by decide) (by decide) (by decide)
theorem V_main_arg8 (c : Dev nD) : V m c main_arg8 = m ((c : Thread nD τ).loc main_arg8) :=
  V_of_not_written m c main_arg8 (by decide) (by decide) (by decide) (by decide) (by decide) (by decide)
theorem V_main_arg9 (c : Dev nD) : V m c main_arg9 = m ((c : Thread nD τ).loc main_arg9) :=
  V_of_not_written m c main_arg9 (by decide) (by decide) (by decide) (by decide) (by decide) (by decide)
theorem V_main_arg10 (c : Dev nD) : V m c main_arg10 = m ((c : Thread nD τ).loc main_arg10) :=
  V_of_not_written m c main_arg10 (by decide) (by decide) (by decide) (by decide) (by decide) (by decide)
theorem V_main_arg11 (c : Dev nD) : V m c main_arg11 = m ((c : Thread nD τ).loc main_arg11) :=
  V_of_not_written m c main_arg11 (by decide) (by decide) (by decide) (by decide) (by decide) (by decide)
theorem V_main_arg12 (c : Dev nD) : V m c main_arg12 = m ((c : Thread nD τ).loc main_arg12) :=
  V_of_not_written m c main_arg12 (by decide) (by decide) (by decide) (by decide) (by decide) (by decide)
theorem V_main_arg13 (c : Dev nD) : V m c main_arg13 = m ((c : Thread nD τ).loc main_arg13) :=
  V_of_not_written m c main_arg13 (by decide) (by decide) (by decide) (by decide) (by decide) (by decide)
theorem V_main_arg14 (c : Dev nD) : V m c main_arg14 = m ((c : Thread nD τ).loc main_arg14) :=
  V_of_not_written m c main_arg14 (by decide) (by decide) (by decide) (by decide) (by decide) (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: a point that does
    not fetch it has the block index of the point before. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: a point that does
    not fetch it has the block index of the point before. -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: a point that does
    not fetch it has the block index of the point before. -/
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: a point that does
    not fetch it has the block index of the point before. -/
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not: a point that does
    not fetch it has the block index of the point before. -/
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not: a point that does
    not fetch it has the block index of the point before. -/
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after a frame run -/

/-- For any proof data whose arrays are the region-entry contents, a run to the library's frame post leaves every
    argument array as launched: `x`, `h`, `c` are staged inputs, the other twelve are staged by no window. -/
theorem args_of (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).1 0).trans (((dats 0 c).arrAt_in 0 rfl _).trans ((hA c 0).trans (V_main_arg0 m c))),
   ((h c).1 1).trans (((dats 0 c).arrAt_in 1 rfl _).trans ((hA c 1).trans (V_main_arg1 m c))),
   ((h c).1 2).trans (((dats 0 c).arrAt_in 2 rfl _).trans ((hA c 2).trans (V_main_arg2 m c))),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   ((h c).2 main_arg5 (Pipeline.mem_restRefs_of main_arg5 (by decide) (by decide))).trans (V_main_arg5 m c),
   ((h c).2 main_arg6 (Pipeline.mem_restRefs_of main_arg6 (by decide) (by decide))).trans (V_main_arg6 m c),
   ((h c).2 main_arg7 (Pipeline.mem_restRefs_of main_arg7 (by decide) (by decide))).trans (V_main_arg7 m c),
   ((h c).2 main_arg8 (Pipeline.mem_restRefs_of main_arg8 (by decide) (by decide))).trans (V_main_arg8 m c),
   ((h c).2 main_arg9 (Pipeline.mem_restRefs_of main_arg9 (by decide) (by decide))).trans (V_main_arg9 m c),
   ((h c).2 main_arg10 (Pipeline.mem_restRefs_of main_arg10 (by decide) (by decide))).trans (V_main_arg10 m c),
   ((h c).2 main_arg11 (Pipeline.mem_restRefs_of main_arg11 (by decide) (by decide))).trans (V_main_arg11 m c),
   ((h c).2 main_arg12 (Pipeline.mem_restRefs_of main_arg12 (by decide) (by decide))).trans (V_main_arg12 m c),
   ((h c).2 main_arg13 (Pipeline.mem_restRefs_of main_arg13 (by decide) (by decide))).trans (V_main_arg13 m c),
   ((h c).2 main_arg14 (Pipeline.mem_restRefs_of main_arg14 (by decide) (by decide))).trans (V_main_arg14 m c)⟩

/-! ## The body's accesses -/

/-- The whole 512 x 1024 block, the whole stacked weight matrix, the whole bias row. -/
abbrev rBlk : Rect S512x1024 := Rect.unit (s := S512x1024) ![0, 0] S512x1024.size inb_S512x1024_S512x1024_0_0
abbrev rWts : Rect S4096x1024 := Rect.unit (s := S4096x1024) ![0, 0] S4096x1024.size inb_S4096x1024_S4096x1024_0_0
abbrev rBias : Rect S1x4096 := Rect.unit (s := S1x4096) ![0, 0] S1x4096.size inb_S1x4096_S1x4096_0_0

/-! ## What the body leaves in each output block -/

/-- The new hidden state's block after the body, from the six input blocks: one store, of the whole block. -/
def outH (x h cc : Vec F S512x1024 .f32) (wx uh : Vec F S4096x1024 .bf16) (b : Vec F S1x4096 .f32) : Vec F S512x1024 .f32 :=
  View.canon [⟨rBlk, k0_pay3 (View.ld x rBlk) (View.ld h rBlk) (View.ld wx rWts) (View.ld uh rWts) (View.ld b rBias) (View.ld cc rBlk)⟩]

/-- The new cell state's block after the body. -/
def outC (x h cc : Vec F S512x1024 .f32) (wx uh : Vec F S4096x1024 .bf16) (b : Vec F S1x4096 .f32) : Vec F S512x1024 .f32 :=
  View.canon [⟨rBlk, k0_pay2 (View.ld x rBlk) (View.ld h rBlk) (View.ld wx rWts) (View.ld uh rWts) (View.ld b rBias) (View.ld cc rBlk)⟩]

/-- One store of the whole block covers the block. -/
theorem cover_blk (p0 : Vec F S512x1024 .f32) (y : S512x1024.Idx) :
    ∃ pc ∈ ([⟨rBlk, p0⟩] : List (View.Piece (Elt F) S512x1024 .f32)), y ∈ pc.1.set :=
  View.cover_of_tiled [⟨rBlk, p0⟩] S512x1024.size (by rfl) y

/-! ## The body's triple -/

set_option maxHeartbeats 1000000 in
/-- The body on whole staging memrefs, the six inputs' at read contents and the two outputs' at anything, runs to the
    continuation holding the inputs' as they were and the outputs' at `outH` and `outC` of the inputs'. -/
theorem sound_kernel (c : Dev nD) (E : Set ℕ) (i : grid0.Coords)
    (arg1 : Memref sig .tc .vmem S512x1024 .f32) (harg1 : arg1.IsWhole) (arg2 : Memref sig .tc .vmem S512x1024 .f32) (harg2 : arg2.IsWhole)
    (arg3 : Memref sig .tc .vmem S512x1024 .f32) (harg3 : arg3.IsWhole) (arg4 : Memref sig .tc .vmem S4096x1024 .bf16) (harg4 : arg4.IsWhole)
    (arg5 : Memref sig .tc .vmem S4096x1024 .bf16) (harg5 : arg5.IsWhole) (arg6 : Memref sig .tc .vmem S1x4096 .f32) (harg6 : arg6.IsWhole)
    (arg7 : Memref sig .tc .vmem S512x1024 .f32) (harg7 : arg7.IsWhole) (arg8 : Memref sig .tc .vmem S512x1024 .f32) (harg8 : arg8.IsWhole)
    (x h cc : Vec F S512x1024 .f32) (wx uh : Vec F S4096x1024 .bf16) (b : Vec F S1x4096 .f32) (K : PUnit → sProp 𝕄) :
    iprop(owns (c : Thread nD τ) arg1 fullShare x ∗ owns (c : Thread nD τ) arg2 fullShare h ∗ owns (c : Thread nD τ) arg3 fullShare cc
        ∗ owns (c : Thread nD τ) arg4 fullShare wx ∗ owns (c : Thread nD τ) arg5 fullShare uh ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h ∗ owns (c : Thread nD τ) arg3 fullShare cc
            ∗ owns (c : Thread nD τ) arg4 fullShare wx ∗ owns (c : Thread nD τ) arg5 fullShare uh ∗ owns (c : Thread nD τ) arg6 fullShare b
            ∗ owns (c : Thread nD τ) arg7 fullShare (outH x h cc wx uh b) ∗ owns (c : Thread nD τ) arg8 fullShare (outC x h cc wx uh b)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_blk _)
  iexists _; isplitr
  swap; · iexact H8
  ipureintro
  exact View.read_writes_eq_canon _ _ _ (cover_blk _)

/-! ## The pipeline's proof data -/

/-- On core `c`: the arrays as the region finds them; after the body at point `t` each input's buffer at its block,
    the two outputs' at the body's values of the six input blocks; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_outH (c : Dev nD) (t : Fin cfg0.N) : (dats m 0 c).after 6 t = outH (iblk m c 0 t) (iblk m c 1 t) (iblk m c 2 t) (iblk m c 3 t) (iblk m c 4 t) (iblk m c 5 t) := by dsimp only [dats]
theorem after_outC (c : Dev nD) (t : Fin cfg0.N) : (dats m 0 c).after 7 t = outC (iblk m c 0 t) (iblk m c 1 t) (iblk m c 2 t) (iblk m c 3 t) (iblk m c 4 t) (iblk m c 5 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so `sound_kernel` applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_outH, after_outC]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every array of the pipeline
    at what the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run with the two results NAMED and every argument array as launched. -/
theorem run_named : θ_run defs (onTc (τ := τ) (main (F := F))) ⟨m, fun _ => 0, ρ⟩ (fun r => ∀ c : Dev nD,
      r.2.mem ((c.tc : Thread nD τ).loc main_v6_0) = (dats m 0 c).arrAt 6 cfg0.N
      ∧ r.2.mem ((c.tc : Thread nD τ).loc main_v6_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1 6, (h c).1 7, args_of m (dats m) (A_eq m) r h c⟩) (run_main m ρ)

/-- THE FRAME: the program runs to the end, nothing faults, and its fifteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => args_of m (dats m) (A_eq m) r h c) (run_main m ρ)

end Cert.KernelIdeal.Cell

end
-- ==== Proof.CellSpec.lean ====
/-
  The cell's mathematics, stated once over plain arrays of extended reals and with no program in sight.

  For a batch of `R` rows, inputs `x h c : R x 1024`, stacked weights `WX UH : 4096 x 1024` (gate `q` occupies rows
  `1024 q .. 1024 q + 1023`: input, forget, output, candidate) and a stacked bias `B` of 4096 entries:

    gate r n   = (sum_k x[r,k] * WX[n,k]) + (sum_k h[r,k] * UH[n,k]) + B[n]
    cellC r j  = logistic (gate r (1024 + j)) * c[r,j] + logistic (gate r j) * tanh (gate r (3072 + j))
    cellH r j  = logistic (gate r (2048 + j)) * tanh (cellC r j)

  The definitions are generic in `R` so that one text reads a 512-row block and the whole 8192-row array; row `r`
  of the result depends on row `r` of `x`, `h`, `c` only (`gate_congr`, `cellC_congr`, `cellH_congr`), which is what
  lets a row block of the inputs give the same row block of the result.
-/
import Idealize.ShloMosaic.PureOps.Ideal
import Idealize.ShloMosaic.PureOps.Ideal.Laws
import Idealize.ShloMosaic.Lib.ValueIdx

noncomputable section

namespace Cert.CellSpec

open Idealize.ShloMosaic Idealize.ShloMosaic.ValueIdx

/-- An `R x C` array of extended reals. -/
abbrev Mat (R C : Nat) : Type := (⟨2, ![R, C]⟩ : Shape).Idx → EReal

/-- Column `j` of the input gate, the forget gate, the output gate, the candidate, among the 4096 stacked columns. -/
abbrev colI (j : Fin 1024) : Fin 4096 := ⟨j.val, by have := j.isLt; omega⟩
abbrev colF (j : Fin 1024) : Fin 4096 := ⟨1024 + j.val, by have := j.isLt; omega⟩
abbrev colO (j : Fin 1024) : Fin 4096 := ⟨2048 + j.val, by have := j.isLt; omega⟩
abbrev colG (j : Fin 1024) : Fin 4096 := ⟨3072 + j.val, by have := j.isLt; omega⟩

variable {R : Nat}

/-- The pre-activation of stacked gate column `n` at batch row `r`. -/
def gate (x h : Mat R 1024) (WX UH : Mat 4096 1024) (B : Fin 4096 → EReal) (r : Fin R) (n : Fin 4096) : EReal :=
  (∑ k : Fin 1024, x (ix2 r k) * WX (ix2 n k)) + (∑ k : Fin 1024, h (ix2 r k) * UH (ix2 n k)) + B n

/-- The new cell state. -/
def cellC (x h c : Mat R 1024) (WX UH : Mat 4096 1024) (B : Fin 4096 → EReal) (r : Fin R) (j : Fin 1024) : EReal :=
  Ideal.logistic (gate x h WX UH B r (colF j)) * c (ix2 r j)
    + Ideal.logistic (gate x h WX UH B r (colI j)) * Ideal.tanh (gate x h WX UH B r (colG j))

/-- The new hidden state. -/
def cellH (x h c : Mat R 1024) (WX UH : Mat 4096 1024) (B : Fin 4096 → EReal) (r : Fin R) (j : Fin 1024) : EReal :=
  Ideal.logistic (gate x h WX UH B r (colO j)) * Ideal.tanh (cellC x h c WX UH B r j)

/-- A gate at row `r` reads row `r` of `x` and of `h` only. -/
theorem gate_congr {R' : Nat} (x h : Mat R 1024) (x' h' : Mat R' 1024) (WX UH : Mat 4096 1024) (B : Fin 4096 → EReal)
    (r : Fin R) (r' : Fin R') (hx : ∀ k, x (ix2 r k) = x' (ix2 r' k)) (hh : ∀ k, h (ix2 r k) = h' (ix2 r' k)) (n : Fin 4096) :
    gate x h WX UH B r n = gate x' h' WX UH B r' n := by
  unfold gate
  simp only [hx, hh]

theorem cellC_congr {R' : Nat} (x h c : Mat R 1024) (x' h' c' : Mat R' 1024) (WX UH : Mat 4096 1024) (B : Fin 4096 → EReal)
    (r : Fin R) (r' : Fin R') (hx : ∀ k, x (ix2 r k) = x' (ix2 r' k)) (hh : ∀ k, h (ix2 r k) = h' (ix2 r' k))
    (hc : ∀ k, c (ix2 r k) = c' (ix2 r' k)) (j : Fin 1024) :
    cellC x h c WX UH B r j = cellC x' h' c' WX UH B r' j := by
  unfold cellC
  rw [gate_congr x h x' h' WX UH B r r' hx hh, gate_congr x h x' h' WX UH B r r' hx hh,
    gate_congr x h x' h' WX UH B r r' hx hh, hc j]

theorem cellH_congr {R' : Nat} (x h c : Mat R 1024) (x' h' c' : Mat R' 1024) (WX UH : Mat 4096 1024) (B : Fin 4096 → EReal)
    (r : Fin R) (r' : Fin R') (hx : ∀ k, x (ix2 r k) = x' (ix2 r' k)) (hh : ∀ k, h (ix2 r k) = h' (ix2 r' k))
    (hc : ∀ k, c (ix2 r k) = c' (ix2 r' k)) (j : Fin 1024) :
    cellH x h c WX UH B r j = cellH x' h' c' WX UH B r' j := by
  unfold cellH
  rw [gate_congr x h x' h' WX UH B r r' hx hh, cellC_congr x h c x' h' c' WX UH B r r' hx hh hc]

/-! ## The stacked parameters and the two results as whole arrays -/

/-- A vector of `n` extended reals. -/
abbrev Vec1 (n : Nat) : Type := (⟨1, ![n]⟩ : Shape).Idx → EReal

theorem stackW_shape : Shape.Concatenates [(⟨2, ![1024, 1024]⟩ : Shape), ⟨2, ![1024, 1024]⟩, ⟨2, ![1024, 1024]⟩, ⟨2, ![1024, 1024]⟩]
    ⟨2, ![4096, 1024]⟩ 0 := by decide
theorem stackB_shape : Shape.Concatenates [(⟨1, ![1024]⟩ : Shape), ⟨1, ![1024]⟩, ⟨1, ![1024]⟩, ⟨1, ![1024]⟩] ⟨1, ![4096]⟩ 0 := by decide

/-- Four 1024 x 1024 matrices stacked along the rows: gate `q`'s matrix is rows `1024 q ..`. -/
def stackW (w0 w1 w2 w3 : Mat 1024 1024) : Mat 4096 1024 :=
  concatenate (⟨2, ![4096, 1024]⟩ : Shape) 0
    [⟨⟨2, ![1024, 1024]⟩, w0⟩, ⟨⟨2, ![1024, 1024]⟩, w1⟩, ⟨⟨2, ![1024, 1024]⟩, w2⟩, ⟨⟨2, ![1024, 1024]⟩, w3⟩] stackW_shape

/-- Four bias vectors of 1024 entries laid end to end. -/
def stackB (b0 b1 b2 b3 : Vec1 1024) : Vec1 4096 :=
  concatenate (⟨1, ![4096]⟩ : Shape) 0 [⟨⟨1, ![1024]⟩, b0⟩, ⟨⟨1, ![1024]⟩, b1⟩, ⟨⟨1, ![1024]⟩, b2⟩, ⟨⟨1, ![1024]⟩, b3⟩] stackB_shape

/-- The new cell state of the whole batch, from the fifteen argument arrays. -/
def resC (x h c : Mat 8192 1024) (wi : Mat 1024 1024) (bi : Vec1 1024) (ui wf : Mat 1024 1024) (bf : Vec1 1024) (uf wo : Mat 1024 1024)
    (bo : Vec1 1024) (uo wc : Mat 1024 1024) (bc : Vec1 1024) (uc : Mat 1024 1024) : Mat 8192 1024 := fun i =>
  cellC x h c (stackW wi wf wo wc) (stackW ui uf uo uc) (fun n => stackB bi bf bo bc (ix1 n)) (i 0) (i 1)

/-- The new hidden state of the whole batch. -/
def resH (x h c : Mat 8192 1024) (wi : Mat 1024 1024) (bi : Vec1 1024) (ui wf : Mat 1024 1024) (bf : Vec1 1024) (uf wo : Mat 1024 1024)
    (bo : Vec1 1024) (uo wc : Mat 1024 1024) (bc : Vec1 1024) (uc : Mat 1024 1024) : Mat 8192 1024 := fun i =>
  cellH x h c (stackW wi wf wo wc) (stackW ui uf uo uc) (fun n => stackB bi bf bo bc (ix1 n)) (i 0) (i 1)

/-- The logistic function spelt out: `1 / (1 + e^(-v))`, with the extended reals' conventions at the infinities. -/
theorem logistic_eq (v : EReal) : Ideal.logistic v = Ideal.div 1 (1 + Ideal.exp (-v)) := rfl

/-- The single-precision pattern `0x3F800000` is the real number one. -/
theorem ofBits_one : Ideal.ofBits .f32 0x3F800000#32 = 1 := by
  simp [Ideal.ofBits, Ideal.ieee, -EReal.coe_mul]; norm_num

end Cert.CellSpec

end
-- ==== Proof.KernelIdealBody.lean ====
/-
  The idealized body's arithmetic, index by index.

  At the ideal instance a narrowing to bf16 is the identity and a matrix product into a zero accumulator is the plain
  sum over the contracted axis, so at row `p` of a block and stacked gate column `n` the pre-activation payload is
  `sum_k x[p,k] wx[n,k] + sum_k h[p,k] uh[n,k] + b[0,n]`: the specification's `gate` of the block.  The four slices of
  the 4096 columns pick the four gates, and the two stored payloads are the specification's new cell state and new
  hidden state of the 512-row block.
-/
import proofs.«147784_j41059887349770_1_alg».proof.Proof.Gen.KernelIdeal.Skeleton
import proofs.«147784_j41059887349770_1_alg».proof.Proof.CellSpec
import Idealize.ShloMosaic.Lib.Pipeline.Value
import Idealize.ShloMosaic.Lib.ValueIdx
import Idealize.ShloMosaic.PureOps.Ideal.Laws

noncomputable section

namespace Cert.KernelIdeal.CellBody

open Cert.KernelIdeal Cert.KernelIdeal.Gen Cert.CellSpec
open Idealize.ShloMosaic Idealize.ShloMosaic.ValueIdx

/-! ## The matrix product's operand indices -/

theorem lhs_axis0 (i : S512x4096.Idx) (q : dot_S512x1024_S4096x1024_S512x4096_1_1_0_0_n_n.contr.Idx) :
    (dot_S512x1024_S4096x1024_S512x4096_1_1_0_0_n_n.lhsIdx i q 0).val = (i 0).val := by
  unfold DotDims.lhsIdx
  rw [dif_neg (show ¬(0 : Fin S512x1024.rank) ∈ dot_S512x1024_S4096x1024_S512x4096_1_1_0_0_n_n.lhsBatch by decide), dif_pos (show (0 : Fin S512x1024.rank) ∈ dot_S512x1024_S4096x1024_S512x4096_1_1_0_0_n_n.lhsNonContracting by decide)]
  rfl
theorem lhs_axis1 (i : S512x4096.Idx) (q : dot_S512x1024_S4096x1024_S512x4096_1_1_0_0_n_n.contr.Idx) :
    (dot_S512x1024_S4096x1024_S512x4096_1_1_0_0_n_n.lhsIdx i q 1).val = (q ⟨0, by decide⟩).val :=
  dot_S512x1024_S4096x1024_S512x4096_1_1_0_0_n_n.lhsIdx_val_of_single rfl i q
theorem rhs_axis0 (i : S512x4096.Idx) (q : dot_S512x1024_S4096x1024_S512x4096_1_1_0_0_n_n.contr.Idx) :
    (dot_S512x1024_S4096x1024_S512x4096_1_1_0_0_n_n.rhsIdx i q 0).val = (i 1).val := by
  unfold DotDims.rhsIdx
  rw [dif_neg (show ¬(0 : Fin S4096x1024.rank) ∈ dot_S512x1024_S4096x1024_S512x4096_1_1_0_0_n_n.rhsBatch by decide), dif_pos (show (0 : Fin S4096x1024.rank) ∈ dot_S512x1024_S4096x1024_S512x4096_1_1_0_0_n_n.rhsNonContracting by decide)]
  rfl
theorem rhs_axis1 (i : S512x4096.Idx) (q : dot_S512x1024_S4096x1024_S512x4096_1_1_0_0_n_n.contr.Idx) :
    (dot_S512x1024_S4096x1024_S512x4096_1_1_0_0_n_n.rhsIdx i q 1).val = (q ⟨0, by decide⟩).val :=
  dot_S512x1024_S4096x1024_S512x4096_1_1_0_0_n_n.rhsIdx_val_of_single rfl i q

/-- Rows of the left operand against ROWS of the right one (both contract their second axis): entry `(p, n)` of the
    product into a zero accumulator is `sum_k a[p,k] w[n,k]`. -/
theorem matmul_at (a : FVec Ideal S512x1024 .bf16) (w : FVec Ideal S4096x1024 .bf16) (p : Fin 512) (n : Fin 4096) :
    matmul dot_S512x1024_S4096x1024_S512x4096_1_1_0_0_n_n none a w (constant (F := Ideal) S512x4096 .f32 0x00000000#32) (ix2 p n)
      = ∑ k : Fin 1024, a (ix2 p k) * w (ix2 n k) := by
  simp only [matmul]
  rw [Ideal.matmul_constant_zero_apply, ← Equiv.sum_comp (ValueIdx.contrEquiv1 dot_S512x1024_S4096x1024_S512x4096_1_1_0_0_n_n 1024 rfl rfl).symm]
  refine Finset.sum_congr rfl fun k _ => ?_
  have hk := ValueIdx.contrEquiv1_symm_val dot_S512x1024_S4096x1024_S512x4096_1_1_0_0_n_n 1024 rfl rfl k
  have el : dot_S512x1024_S4096x1024_S512x4096_1_1_0_0_n_n.lhsIdx (ix2 p n) ((ValueIdx.contrEquiv1 dot_S512x1024_S4096x1024_S512x4096_1_1_0_0_n_n 1024 rfl rfl).symm k) = ix2 p k := funext fun a => Fin.ext (by
    match a with
    | ⟨0, _⟩ => exact lhs_axis0 _ _
    | ⟨1, _⟩ => exact (lhs_axis1 _ _).trans hk)
  have er : dot_S512x1024_S4096x1024_S512x4096_1_1_0_0_n_n.rhsIdx (ix2 p n) ((ValueIdx.contrEquiv1 dot_S512x1024_S4096x1024_S512x4096_1_1_0_0_n_n 1024 rfl rfl).symm k) = ix2 n k := funext fun a => Fin.ext (by
    match a with
    | ⟨0, _⟩ => exact rhs_axis0 _ _
    | ⟨1, _⟩ => exact (rhs_axis1 _ _).trans hk)
  rw [el, er]

/-- The bias row broadcast down the 512 rows, read at `(p, n)`, is its entry `n`. -/
theorem bias_at (b : FVec Ideal S1x4096 .f32) (p : Fin 512) (n : Fin 4096) :
    broadcastTo S512x4096 b broadcasts_S1x4096_S512x4096 (ix2 p n) = b (ix2 (0 : Fin 1) n) :=
  broadcastTo_apply b broadcasts_S1x4096_S512x4096 (ix2 p n) (ix2 (0 : Fin 1) n) (fun a => match a with
    | ⟨0, _⟩ => by show 0 = if (1 : Nat) = 1 then 0 else _; rw [if_pos rfl]
    | ⟨1, _⟩ => by show n.val = if (4096 : Nat) = 1 then 0 else _; rw [if_neg (by decide)]; rfl)

/-- The pre-activation payload at row `p`, stacked column `n`, is the specification's gate of the block. -/
theorem pay1_at (x h : FVec Ideal S512x1024 .f32) (wx uh : FVec Ideal S4096x1024 .bf16) (b : FVec Ideal S1x4096 .f32)
    (p : Fin 512) (n : Fin 4096) :
    k0_pay1 (F := Ideal) x h wx uh b (ix2 p n) = gate x h wx uh (fun n => b (ix2 (0 : Fin 1) n)) p n := by
  unfold k0_pay1 gate
  simp only [shapeCast_self]
  rw [addf_apply, addf_apply, matmul_at, matmul_at, bias_at]
  rfl

/-! ## The four gates' columns -/

theorem sliceI_at (y : FVec Ideal S512x4096 .f32) (p : Fin 512) (j : Fin 1024) :
    extractStridedSlice S512x1024 ![0, 0] y slices_S512x4096_o0_0_S512x1024 (ix2 p j) = y (ix2 p (colI j)) :=
  extractStridedSlice_apply ![0, 0] y slices_S512x4096_o0_0_S512x1024 (ix2 p j) (ix2 p (colI j)) (fun a => match a with
    | ⟨0, _⟩ => by show p.val = 0 + p.val; omega
    | ⟨1, _⟩ => by show j.val = 0 + j.val; omega)
theorem sliceF_at (y : FVec Ideal S512x4096 .f32) (p : Fin 512) (j : Fin 1024) :
    extractStridedSlice S512x1024 ![0, 1024] y slices_S512x4096_o0_1024_S512x1024 (ix2 p j) = y (ix2 p (colF j)) :=
  extractStridedSlice_apply ![0, 1024] y slices_S512x4096_o0_1024_S512x1024 (ix2 p j) (ix2 p (colF j)) (fun a => match a with
    | ⟨0, _⟩ => by show p.val = 0 + p.val; omega
    | ⟨1, _⟩ => by show 1024 + j.val = 1024 + j.val; rfl)
theorem sliceO_at (y : FVec Ideal S512x4096 .f32) (p : Fin 512) (j : Fin 1024) :
    extractStridedSlice S512x1024 ![0, 2048] y slices_S512x4096_o0_2048_S512x1024 (ix2 p j) = y (ix2 p (colO j)) :=
  extractStridedSlice_apply ![0, 2048] y slices_S512x4096_o0_2048_S512x1024 (ix2 p j) (ix2 p (colO j)) (fun a => match a with
    | ⟨0, _⟩ => by show p.val = 0 + p.val; omega
    | ⟨1, _⟩ => by show 2048 + j.val = 2048 + j.val; rfl)
theorem sliceG_at (y : FVec Ideal S512x4096 .f32) (p : Fin 512) (j : Fin 1024) :
    extractStridedSlice S512x1024 ![0, 3072] y slices_S512x4096_o0_3072_S512x1024 (ix2 p j) = y (ix2 p (colG j)) :=
  extractStridedSlice_apply ![0, 3072] y slices_S512x4096_o0_3072_S512x1024 (ix2 p j) (ix2 p (colG j)) (fun a => match a with
    | ⟨0, _⟩ => by show p.val = 0 + p.val; omega
    | ⟨1, _⟩ => by show 3072 + j.val = 3072 + j.val; rfl)

/-! ## The two stored payloads -/

/-- The payload stored into the new cell state's block is the specification's `cellC` of the block. -/
theorem pay2_at (x h : FVec Ideal S512x1024 .f32) (wx uh : FVec Ideal S4096x1024 .bf16) (b : FVec Ideal S1x4096 .f32)
    (c : FVec Ideal S512x1024 .f32) (p : Fin 512) (j : Fin 1024) :
    k0_pay2 (F := Ideal) x h wx uh b c (ix2 p j) = cellC x h c wx uh (fun n => b (ix2 (0 : Fin 1) n)) p j := by
  unfold k0_pay2 cellC
  show Ideal.logistic (extractStridedSlice S512x1024 ![0, 1024] (k0_pay1 (F := Ideal) x h wx uh b) slices_S512x4096_o0_1024_S512x1024 (ix2 p j)) * c (ix2 p j)
      + Ideal.logistic (extractStridedSlice S512x1024 ![0, 0] (k0_pay1 (F := Ideal) x h wx uh b) slices_S512x4096_o0_0_S512x1024 (ix2 p j))
        * Ideal.tanh (extractStridedSlice S512x1024 ![0, 3072] (k0_pay1 (F := Ideal) x h wx uh b) slices_S512x4096_o0_3072_S512x1024 (ix2 p j)) = _
  rw [sliceF_at, sliceI_at, sliceG_at, pay1_at, pay1_at, pay1_at]

/-- The payload stored into the new hidden state's block is the specification's `cellH` of the block. -/
theorem pay3_at (x h : FVec Ideal S512x1024 .f32) (wx uh : FVec Ideal S4096x1024 .bf16) (b : FVec Ideal S1x4096 .f32)
    (c : FVec Ideal S512x1024 .f32) (p : Fin 512) (j : Fin 1024) :
    k0_pay3 (F := Ideal) x h wx uh b c (ix2 p j) = cellH x h c wx uh (fun n => b (ix2 (0 : Fin 1) n)) p j := by
  unfold k0_pay3 cellH
  show Ideal.logistic (extractStridedSlice S512x1024 ![0, 2048] (k0_pay1 (F := Ideal) x h wx uh b) slices_S512x4096_o0_2048_S512x1024 (ix2 p j))
      * Ideal.tanh (k0_pay2 (F := Ideal) x h wx uh b c (ix2 p j)) = _
  rw [sliceO_at, pay1_at, pay2_at]

end Cert.KernelIdeal.CellBody

end
-- ==== Proof.KernelIdealValue.lean ====
/-
  What the idealized kernel's run leaves in its two result arrays.

  The region finds the stacked weight matrices and the bias row as the host operations left them: at the ideal
  instance the narrowing to bf16 is the identity, so they are the specification's `stackW` and `stackB` of the
  argument arrays.  Point `t` of the 16-point grid is handed rows `512 t .. 512 t + 511` of `x`, `h`, `c`, the
  weights and the bias whole, and writes back rows `512 t ..` of each result; its payloads are the specification's
  cell functions of the block (the body module), and a row of the result depends on that row of the inputs only, so
  what point `t` writes back is block `t` of the specification's whole-array result.  The sixteen blocks tile the
  8192 rows, so each result array ends as the specification's function of the fifteen arguments.
-/
import proofs.«147784_j41059887349770_1_alg».proof.Proof.KernelIdealFrame
import proofs.«147784_j41059887349770_1_alg».proof.Proof.KernelIdealBody
import Idealize.ShloMosaic.Lib.StableHlo.Run
import Idealize.ShloMosaic.Lib.Pipeline.Value

set_option maxRecDepth 16384

noncomputable section

namespace Cert.KernelIdeal.CellValue

open Cert.KernelIdeal Cert.KernelIdeal.Gen Cert.KernelIdeal.Cell Cert.KernelIdeal.CellBody Cert.CellSpec
open Idealize.ShloMosaic Idealize.ShloMosaic.TcCoe Idealize.ShloMosaic.ValueIdx Idealize.ShloMosaic.StableHlo
open Idealize.SL.Sem
open Idealize.ShloMosaic.Pipeline (Dat Cfg Window)

variable (m : (ℓ : Loc nD τ sig) → Buf (Elt Ideal) ℓ) (ρ : Dev nD → PrngReg)

/-! ## The arrays the host operations wrote -/

/-- The stacked input weights as the region finds them. -/
theorem V_wx (c : Dev nD) : (V m c main_v1 : S4096x1024.Idx → EReal)
    = stackW (m ((c : Thread nD τ).loc main_arg3)) (m ((c : Thread nD τ).loc main_arg6)) (m ((c : Thread nD τ).loc main_arg9)) (m ((c : Thread nD τ).loc main_arg12)) := by
  dsimp only [V, hostOps0]
  after_results
  rfl

/-- The stacked recurrent weights as the region finds them. -/
theorem V_uh (c : Dev nD) : (V m c main_v3 : S4096x1024.Idx → EReal)
    = stackW (m ((c : Thread nD τ).loc main_arg5)) (m ((c : Thread nD τ).loc main_arg8)) (m ((c : Thread nD τ).loc main_arg11)) (m ((c : Thread nD τ).loc main_arg14)) := by
  dsimp only [V, hostOps0]
  after_results
  rfl

/-- The bias row as the region finds it: entry `(0, n)` is entry `n` of the stacked bias. -/
theorem V_b (c : Dev nD) : (V m c main_v5 : S1x4096.Idx → EReal)
    = fun i => stackB (m ((c : Thread nD τ).loc main_arg4)) (m ((c : Thread nD τ).loc main_arg7)) (m ((c : Thread nD τ).loc main_arg10)) (m ((c : Thread nD τ).loc main_arg13)) (ix1 (i 1)) := by
  dsimp only [V, hostOps0]
  simp only [after_cons, after_nil]
  rw [reshape_result, nary4_result]
  after_results
  funext i
  show shapeCast S1x4096 _ shapeCasts_S4096_S1x4096 i = _
  rw [shapeCast_addUnit_apply]
  have hi : (fun a : Fin 1 => i a.succ) = ix1 (i 1) := funext fun a => match a with | ⟨0, _⟩ => rfl
  exact congrArg (stackB (m ((c : Thread nD τ).loc main_arg4)) (m ((c : Thread nD τ).loc main_arg7)) (m ((c : Thread nD τ).loc main_arg10)) (m ((c : Thread nD τ).loc main_arg13))) hi

/-! ## The windows' block indices over the grid -/

theorem hz : (![0, 0] : Fin 2 → Nat) = fun _ => 0 := funext fun a => by fin_cases a <;> rfl

/-- Windows 0, 1, 2, 6, 7 are at row block `t`; windows 3, 4, 5 never move. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem N16 : cfg0.N = 16 := N_0

/-- Row `p` of point `t`'s blocks is row `512 t + p` of the batch. -/
def rowOf (t : Fin cfg0.N) (p : Fin 512) : Fin 8192 := ⟨t.val * 512 + p.val, by have ht : t.val < 16 := lt_of_lt_of_eq t.isLt N16; have := p.isLt; omega⟩

theorem emb_row0 (t : Fin cfg0.N) (p : Fin 512) (j : Fin 1024) : ((cfg0.win 0).blk t).view.emb (ix2 p j) = ix2 (rowOf t p) j :=
  funext fun a => Fin.ext (by
    obtain ⟨r00, r01, r10, r11, r20, r21, r60, r61, r70, r71, w30, w31, w40, w41, w50, w51⟩ := idx_facts t
    match a with
    | ⟨0, _⟩ => show win0_0.index t (0 : Fin 2) * 512 + 1 * p.val = t.val * 512 + p.val; omega
    | ⟨1, _⟩ => show win0_0.index t (1 : Fin 2) * 1024 + 1 * j.val = j.val; omega)
theorem emb_row1 (t : Fin cfg0.N) (p : Fin 512) (j : Fin 1024) : ((cfg0.win 1).blk t).view.emb (ix2 p j) = ix2 (rowOf t p) j :=
  funext fun a => Fin.ext (by
    obtain ⟨r00, r01, r10, r11, r20, r21, r60, r61, r70, r71, w30, w31, w40, w41, w50, w51⟩ := idx_facts t
    match a with
    | ⟨0, _⟩ => show win0_1.index t (0 : Fin 2) * 512 + 1 * p.val = t.val * 512 + p.val; omega
    | ⟨1, _⟩ => show win0_1.index t (1 : Fin 2) * 1024 + 1 * j.val = j.val; omega)
theorem emb_row2 (t : Fin cfg0.N) (p : Fin 512) (j : Fin 1024) : ((cfg0.win 2).blk t).view.emb (ix2 p j) = ix2 (rowOf t p) j :=
  funext fun a => Fin.ext (by
    obtain ⟨r00, r01, r10, r11, r20, r21, r60, r61, r70, r71, w30, w31, w40, w41, w50, w51⟩ := idx_facts t
    match a with
    | ⟨0, _⟩ => show win0_2.index t (0 : Fin 2) * 512 + 1 * p.val = t.val * 512 + p.val; omega
    | ⟨1, _⟩ => show win0_2.index t (1 : Fin 2) * 1024 + 1 * j.val = j.val; omega)
theorem emb_row6 (t : Fin cfg0.N) (p : Fin 512) (j : Fin 1024) : ((cfg0.win 6).blk t).view.emb (ix2 p j) = ix2 (rowOf t p) j :=
  funext fun a => Fin.ext (by
    obtain ⟨r00, r01, r10, r11, r20, r21, r60, r61, r70, r71, w30, w31, w40, w41, w50, w51⟩ := idx_facts t
    match a with
    | ⟨0, _⟩ => show win0_6.index t (0 : Fin 2) * 512 + 1 * p.val = t.val * 512 + p.val; omega
    | ⟨1, _⟩ => show win0_6.index t (1 : Fin 2) * 1024 + 1 * j.val = j.val; omega)
theorem emb_row7 (t : Fin cfg0.N) (p : Fin 512) (j : Fin 1024) : ((cfg0.win 7).blk t).view.emb (ix2 p j) = ix2 (rowOf t p) j :=
  funext fun a => Fin.ext (by
    obtain ⟨r00, r01, r10, r11, r20, r21, r60, r61, r70, r71, w30, w31, w40, w41, w50, w51⟩ := idx_facts t
    match a with
    | ⟨0, _⟩ => show win0_7.index t (0 : Fin 2) * 512 + 1 * p.val = t.val * 512 + p.val; omega
    | ⟨1, _⟩ => show win0_7.index t (1 : Fin 2) * 1024 + 1 * j.val = j.val; omega)

/-! ## The input blocks, read -/

theorem iblk_x (c : Dev nD) (t : Fin cfg0.N) (p : Fin 512) (k : Fin 1024) :
    iblk m c 0 t (ix2 p k) = m ((c : Thread nD τ).loc main_arg0) (ix2 (rowOf t p) k) := by
  show V m c main_arg0 (((cfg0.win 0).blk t).view.emb (ix2 p k)) = _
  rw [emb_row0, V_main_arg0]
theorem iblk_h (c : Dev nD) (t : Fin cfg0.N) (p : Fin 512) (k : Fin 1024) :
    iblk m c 1 t (ix2 p k) = m ((c : Thread nD τ).loc main_arg1) (ix2 (rowOf t p) k) := by
  show V m c main_arg1 (((cfg0.win 1).blk t).view.emb (ix2 p k)) = _
  rw [emb_row1, V_main_arg1]
theorem iblk_c (c : Dev nD) (t : Fin cfg0.N) (p : Fin 512) (k : Fin 1024) :
    iblk m c 2 t (ix2 p k) = m ((c : Thread nD τ).loc main_arg2) (ix2 (rowOf t p) k) := by
  show V m c main_arg2 (((cfg0.win 2).blk t).view.emb (ix2 p k)) = _
  rw [emb_row2, V_main_arg2]

theorem iblk_wx (c : Dev nD) (t : Fin cfg0.N) : (iblk m c 3 t : S4096x1024.Idx → EReal)
    = stackW (m ((c : Thread nD τ).loc main_arg3)) (m ((c : Thread nD τ).loc main_arg6)) (m ((c : Thread nD τ).loc main_arg9)) (m ((c : Thread nD τ).loc main_arg12)) := by
  funext y
  show V m c main_v1 (((cfg0.win 3).blk t).view.emb y) = _
  have e : ((cfg0.win 3).blk t).view.emb y = y := funext fun a => Fin.ext (by
    obtain ⟨r00, r01, r10, r11, r20, r21, r60, r61, r70, r71, w30, w31, w40, w41, w50, w51⟩ := idx_facts t
    match a with
    | ⟨0, _⟩ => show win0_3.index t (0 : Fin 2) * 4096 + 1 * (y 0).val = (y 0).val; omega
    | ⟨1, _⟩ => show win0_3.index t (1 : Fin 2) * 1024 + 1 * (y 1).val = (y 1).val; omega)
  rw [e, V_wx]

theorem iblk_uh (c : Dev nD) (t : Fin cfg0.N) : (iblk m c 4 t : S4096x1024.Idx → EReal)
    = stackW (m ((c : Thread nD τ).loc main_arg5)) (m ((c : Thread nD τ).loc main_arg8)) (m ((c : Thread nD τ).loc main_arg11)) (m ((c : Thread nD τ).loc main_arg14)) := by
  funext y
  show V m c main_v3 (((cfg0.win 4).blk t).view.emb y) = _
  have e : ((cfg0.win 4).blk t).view.emb y = y := funext fun a => Fin.ext (by
    obtain ⟨r00, r01, r10, r11, r20, r21, r60, r61, r70, r71, w30, w31, w40, w41, w50, w51⟩ := idx_facts t
    match a with
    | ⟨0, _⟩ => show win0_4.index t (0 : Fin 2) * 4096 + 1 * (y 0).val = (y 0).val; omega
    | ⟨1, _⟩ => show win0_4.index t (1 : Fin 2) * 1024 + 1 * (y 1).val = (y 1).val; omega)
  rw [e, V_uh]

theorem iblk_b (c : Dev nD) (t : Fin cfg0.N) : (fun n : Fin 4096 => (iblk m c 5 t : S1x4096.Idx → EReal) (ix2 (0 : Fin 1) n))
    = fun n => stackB (m ((c : Thread nD τ).loc main_arg4)) (m ((c : Thread nD τ).loc main_arg7)) (m ((c : Thread nD τ).loc main_arg10)) (m ((c : Thread nD τ).loc main_arg13)) (ix1 n) := by
  funext n
  show V m c main_v5 (((cfg0.win 5).blk t).view.emb (ix2 (0 : Fin 1) n)) = _
  have e : ((cfg0.win 5).blk t).view.emb (ix2 (0 : Fin 1) n) = ix2 (0 : Fin 1) n := funext fun a => Fin.ext (by
    obtain ⟨r00, r01, r10, r11, r20, r21, r60, r61, r70, r71, w30, w31, w40, w41, w50, w51⟩ := idx_facts t
    match a with
    | ⟨0, _⟩ => show win0_5.index t (0 : Fin 2) * 1 + 1 * 0 = 0; omega
    | ⟨1, _⟩ => show win0_5.index t (1 : Fin 2) * 4096 + 1 * n.val = n.val; omega)
  rw [e, V_b]
  rfl

/-! ## The two results as whole arrays -/

/-- The new cell state, the specification's function of the fifteen argument arrays on core `c`. -/
abbrev GC (c : Dev nD) : S8192x1024.Idx → EReal := resC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
/-- The new hidden state. -/
abbrev GH (c : Dev nD) : S8192x1024.Idx → EReal := resH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- What point `t` writes back into the cell-state array is block `t` of `GC`. -/
theorem flushedC_eq (c : Dev nD) (t : Fin cfg0.N) :
    (dats m 0 c).flushed 7 t = ((cfg0.win 7).blk t).view.read (Elt Ideal) (GC m c) := by
  show (cfg0.win 7).cut (grid0.coords t) ((dats m 0 c).after 7 t) = _
  rw [after_outC]
  unfold outC
  rw [View.canon_unit_zero hz]
  simp only [View.ld_unit_zero (S := S512x1024) hz, View.ld_unit_zero (S := S4096x1024) hz, View.ld_unit_zero (S := S1x4096) hz]
  funext y
  obtain ⟨p, j, rfl⟩ : ∃ (p : Fin 512) (j : Fin 1024), y = ix2 p j := ⟨y 0, y 1, eq_ix2 y⟩
  show k0_pay2 (F := Ideal) (iblk m c 0 t) (iblk m c 1 t) (iblk m c 3 t) (iblk m c 4 t) (iblk m c 5 t) (iblk m c 2 t) (ix2 p j)
    = GC m c (((cfg0.win 7).blk t).view.emb (ix2 p j))
  rw [emb_row7]
  refine (pay2_at (iblk m c 0 t) (iblk m c 1 t) (iblk m c 3 t) (iblk m c 4 t) (iblk m c 5 t) (iblk m c 2 t) p j).trans ?_
  rw [iblk_wx, iblk_uh, iblk_b]
  exact cellC_congr _ _ _ _ _ _ _ _ _ p (rowOf t p) (iblk_x m c t p) (iblk_h m c t p) (iblk_c m c t p) j

/-- What point `t` writes back into the hidden-state array is block `t` of `GH`. -/
theorem flushedH_eq (c : Dev nD) (t : Fin cfg0.N) :
    (dats m 0 c).flushed 6 t = ((cfg0.win 6).blk t).view.read (Elt Ideal) (GH m c) := by
  show (cfg0.win 6).cut (grid0.coords t) ((dats m 0 c).after 6 t) = _
  rw [after_outH]
  unfold outH
  rw [View.canon_unit_zero hz]
  simp only [View.ld_unit_zero (S := S512x1024) hz, View.ld_unit_zero (S := S4096x1024) hz, View.ld_unit_zero (S := S1x4096) hz]
  funext y
  obtain ⟨p, j, rfl⟩ : ∃ (p : Fin 512) (j : Fin 1024), y = ix2 p j := ⟨y 0, y 1, eq_ix2 y⟩
  show k0_pay3 (F := Ideal) (iblk m c 0 t) (iblk m c 1 t) (iblk m c 3 t) (iblk m c 4 t) (iblk m c 5 t) (iblk m c 2 t) (ix2 p j)
    = GH m c (((cfg0.win 6).blk t).view.emb (ix2 p j))
  rw [emb_row6]
  refine (pay3_at (iblk m c 0 t) (iblk m c 1 t) (iblk m c 3 t) (iblk m c 4 t) (iblk m c 5 t) (iblk m c 2 t) p j).trans ?_
  rw [iblk_wx, iblk_uh, iblk_b]
  exact cellH_congr _ _ _ _ _ _ _ _ _ p (rowOf t p) (iblk_x m c t p) (iblk_h m c t p) (iblk_c m c t p) j

/-! ## The sixteen row blocks tile the array -/

theorem mem_blk7 (t : Fin cfg0.N) (i : S8192x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v6_1).slice (win0_7.rect t)).set ↔ _
  rw [View.set_slice_whole, Rect.mem_set_unit]
  exact Iff.rfl

/-- Row `r` is in the block of point `r / 512`. -/
theorem cover7 (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  let t : Fin cfg0.N := ⟨(i 0).val / 512, by rw [N16]; omega⟩
  have ht : t.val = (i 0).val / 512 := rfl
  refine ⟨t, flush0_7 t, ?_⟩
  rw [mem_blk7]
  obtain ⟨r00, r01, r10, r11, r20, r21, r60, r61, r70, r71, w30, w31, w40, w41, w50, w51⟩ := idx_facts t
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 1024 ≤ (i 1).val ∧ (i 1).val < win0_7.index t (1 : Fin 2) * 1024 + 1024; omega

theorem mem_blk6 (t : Fin cfg0.N) (i : S8192x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v6_0).slice (win0_6.rect t)).set ↔ _
  rw [View.set_slice_whole, Rect.mem_set_unit]
  exact Iff.rfl

/-- Row `r` is in the block of point `r / 512`. -/
theorem cover6 (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  let t : Fin cfg0.N := ⟨(i 0).val / 512, by rw [N16]; omega⟩
  have ht : t.val = (i 0).val / 512 := rfl
  refine ⟨t, flush0_6 t, ?_⟩
  rw [mem_blk6]
  obtain ⟨r00, r01, r10, r11, r20, r21, r60, r61, r70, r71, w30, w31, w40, w41, w50, w51⟩ := idx_facts t
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 1024 ≤ (i 1).val ∧ (i 1).val < win0_6.index t (1 : Fin 2) * 1024 + 1024; omega

/-! ## The arrays after the run -/

theorem finalC (c : Dev nD) : (dats m 0 c).arrAt 7 cfg0.N = GC m c :=
  (dats m 0 c).arrAt_eq_of_cover 7 (GC m c) (fun t _ => flushedC_eq m c t) cover7

theorem finalH (c : Dev nD) : (dats m 0 c).arrAt 6 cfg0.N = GH m c :=
  (dats m 0 c).arrAt_eq_of_cover 6 (GH m c) (fun t _ => flushedH_eq m c t) cover6

/-- The idealized kernel's run: the two results at the specification's functions of the arguments, every argument
    array as launched. -/
theorem run : θ_run defs (onTc (τ := τ) (main (F := Ideal))) ⟨m, fun _ => 0, ρ⟩ (fun r => ∀ c : Dev nD,
      r.2.mem ((c.tc : Thread nD τ).loc main_v6_0) = GH m c
      ∧ r.2.mem ((c.tc : Thread nD τ).loc main_v6_1) = GC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (finalH m c), (h c).2.1.trans (finalC m c), (h c).2.2⟩) (run_named m ρ)

end Cert.KernelIdeal.CellValue

end
-- ==== Proof.RefValue.lean ====
/-
  The reference's value, read one stage at a time down to the specification.

  The reference stacks the same four weight matrices and bias vectors, transposes the stacked weights and contracts
  the batch's rows against the transposed columns: entry `(r, n)` of each product is `sum_k x[r,k] W[n,k]`, so its
  pre-activation array at `(r, n)` is the specification's `gate r n`.  It spells the logistic function as
  `1 / (1 + exp (-v))` with the literal `1.0`, which is the specification's `logistic` by definition; its four column
  slices pick the four gates; and its last lines are the specification's `cellC` and `cellH` operation for operation.
-/
import proofs.«147784_j41059887349770_1_alg».proof.Proof.Gen.ReferenceIdeal.Run
import proofs.«147784_j41059887349770_1_alg».proof.Proof.Gen.ReferenceIdeal.Read
import proofs.«147784_j41059887349770_1_alg».proof.Proof.CellSpec

noncomputable section

namespace Cert.ReferenceIdeal.CellValue

open Cert.ReferenceIdeal Cert.ReferenceIdeal.Gen Cert.ReferenceIdeal.Read Cert.CellSpec
open Idealize.ShloMosaic Idealize.ShloMosaic.TcCoe Idealize.ShloMosaic.ValueIdx

/-! ## Index bookkeeping of the two products, the bias broadcast and the four slices -/

theorem lidx4 (r : Fin 8192) (n : Fin 4096) (k : Fin 1024) : lidx_main_v4 (ix2 r n) k = ix2 r k :=
  funext fun a => Fin.ext (by match a with | ⟨0, _⟩ => rfl | ⟨1, _⟩ => rfl)
theorem ridx4 (r : Fin 8192) (n : Fin 4096) (k : Fin 1024) : idx_main_v3 (ridx_main_v4 (ix2 r n) k) = ix2 n k :=
  funext fun a => Fin.ext (by match a with | ⟨0, _⟩ => rfl | ⟨1, _⟩ => rfl)
theorem lidx6 (r : Fin 8192) (n : Fin 4096) (k : Fin 1024) : lidx_main_v6 (ix2 r n) k = ix2 r k :=
  funext fun a => Fin.ext (by match a with | ⟨0, _⟩ => rfl | ⟨1, _⟩ => rfl)
theorem ridx6 (r : Fin 8192) (n : Fin 4096) (k : Fin 1024) : idx_main_v5 (ridx_main_v6 (ix2 r n) k) = ix2 n k :=
  funext fun a => Fin.ext (by match a with | ⟨0, _⟩ => rfl | ⟨1, _⟩ => rfl)
theorem bidx (r : Fin 8192) (n : Fin 4096) : idx_main_v8 (idx_main_v9 (ix2 r n)) = ix1 n :=
  funext fun a => Fin.ext (by match a with | ⟨0, _⟩ => rfl)
theorem sidxI (r : Fin 8192) (j : Fin 1024) : idx_main_v11 (ix2 r j) = ix2 r (colI j) :=
  funext fun a => Fin.ext (by match a with | ⟨0, _⟩ => rfl | ⟨1, _⟩ => rfl)
theorem sidxF (r : Fin 8192) (j : Fin 1024) : idx_main_v12 (ix2 r j) = ix2 r (colF j) :=
  funext fun a => Fin.ext (by match a with | ⟨0, _⟩ => rfl | ⟨1, _⟩ => rfl)
theorem sidxO (r : Fin 8192) (j : Fin 1024) : idx_main_v13 (ix2 r j) = ix2 r (colO j) :=
  funext fun a => Fin.ext (by match a with | ⟨0, _⟩ => rfl | ⟨1, _⟩ => rfl)
theorem sidxG (r : Fin 8192) (j : Fin 1024) : idx_main_v14 (ix2 r j) = ix2 r (colG j) :=
  funext fun a => Fin.ext (by match a with | ⟨0, _⟩ => rfl | ⟨1, _⟩ => rfl)

/-! ## The pre-activations -/

/-- The reference's pre-activation array at `(r, n)` is the specification's gate. -/
theorem gate_ref (x0 x1 : FVec Ideal S8192x1024 .f32) (x3 : FVec Ideal S1024x1024 .f32) (x4 : FVec Ideal S1024 .f32) (x5 x6 : FVec Ideal S1024x1024 .f32) (x7 : FVec Ideal S1024 .f32) (x8 x9 : FVec Ideal S1024x1024 .f32) (x10 : FVec Ideal S1024 .f32) (x11 x12 : FVec Ideal S1024x1024 .f32) (x13 : FVec Ideal S1024 .f32) (x14 : FVec Ideal S1024x1024 .f32)
    (r : Fin 8192) (n : Fin 4096) :
    val_main_v10 (F := Ideal) x0 x1 x3 x4 x5 x6 x7 x8 x9 x10 x11 x12 x13 x14 (ix2 r n)
      = gate x0 x1 (stackW x3 x6 x9 x12) (stackW x5 x8 x11 x14) (fun n => stackB x4 x7 x10 x13 (ix1 n)) r n := by
  rw [val_main_v10_apply, val_main_v7_apply, val_main_v4_apply, val_main_v6_apply, val_main_v9_apply, val_main_v8_apply]
  simp only [val_main_v3_apply, val_main_v5_apply, lidx4, ridx4, lidx6, ridx6, bidx]
  rfl

/-! ## The two results -/

/-- The reference's new cell state is the specification's. -/
theorem refC (x0 x1 x2 : FVec Ideal S8192x1024 .f32) (x3 : FVec Ideal S1024x1024 .f32) (x4 : FVec Ideal S1024 .f32) (x5 x6 : FVec Ideal S1024x1024 .f32) (x7 : FVec Ideal S1024 .f32) (x8 x9 : FVec Ideal S1024x1024 .f32) (x10 : FVec Ideal S1024 .f32) (x11 x12 : FVec Ideal S1024x1024 .f32) (x13 : FVec Ideal S1024 .f32) (x14 : FVec Ideal S1024x1024 .f32) (i : S8192x1024.Idx) :
    val_main_v36 (F := Ideal) x0 x1 x2 x3 x4 x5 x6 x7 x8 x9 x10 x11 x12 x13 x14 i = resC x0 x1 x2 x3 x4 x5 x6 x7 x8 x9 x10 x11 x12 x13 x14 i := by
  obtain ⟨r, j, rfl⟩ : ∃ (r : Fin 8192) (j : Fin 1024), i = ix2 r j := ⟨i 0, i 1, eq_ix2 i⟩
  rw [val_main_v36_apply, val_main_v34_apply, val_main_v35_apply,
    val_main_v26_apply, val_main_v25_apply, val_main_cst_2_apply, val_main_v24_apply, val_main_v23_apply, val_main_cst_1_apply,
    val_main_v22_apply, val_main_v21_apply, val_main_v12_apply,
    val_main_v20_apply, val_main_v19_apply, val_main_cst_0_apply, val_main_v18_apply, val_main_v17_apply, val_main_cst_apply,
    val_main_v16_apply, val_main_v15_apply, val_main_v11_apply,
    val_main_v33_apply, val_main_v14_apply,
    sidxF, sidxI, sidxG, gate_ref, gate_ref, gate_ref]
  simp only [Ideal.addf_def, Ideal.mulf_def, Ideal.hostDivf_def, Ideal.hostUnary_exp_def, Ideal.hostNegf_def, Ideal.negf_def,
    Ideal.hostUnary_tanh_def, Ideal.ofBits_def, ofBits_one]
  rfl

/-- The reference's new hidden state is the specification's. -/
theorem refH (x0 x1 x2 : FVec Ideal S8192x1024 .f32) (x3 : FVec Ideal S1024x1024 .f32) (x4 : FVec Ideal S1024 .f32) (x5 x6 : FVec Ideal S1024x1024 .f32) (x7 : FVec Ideal S1024 .f32) (x8 x9 : FVec Ideal S1024x1024 .f32) (x10 : FVec Ideal S1024 .f32) (x11 x12 : FVec Ideal S1024x1024 .f32) (x13 : FVec Ideal S1024 .f32) (x14 : FVec Ideal S1024x1024 .f32) (i : S8192x1024.Idx) :
    val_main_v38 (F := Ideal) x0 x1 x2 x3 x4 x5 x6 x7 x8 x9 x10 x11 x12 x13 x14 i = resH x0 x1 x2 x3 x4 x5 x6 x7 x8 x9 x10 x11 x12 x13 x14 i := by
  obtain ⟨r, j, rfl⟩ : ∃ (r : Fin 8192) (j : Fin 1024), i = ix2 r j := ⟨i 0, i 1, eq_ix2 i⟩
  rw [val_main_v38_apply, val_main_v37_apply, refC,
    val_main_v32_apply, val_main_v31_apply, val_main_cst_4_apply, val_main_v30_apply, val_main_v29_apply, val_main_cst_3_apply,
    val_main_v28_apply, val_main_v27_apply, val_main_v13_apply, sidxO, gate_ref]
  simp only [Ideal.addf_def, Ideal.mulf_def, Ideal.hostDivf_def, Ideal.hostUnary_exp_def, Ideal.hostNegf_def, Ideal.negf_def,
    Ideal.hostUnary_tanh_def, Ideal.ofBits_def, ofBits_one]
  rfl

end Cert.ReferenceIdeal.CellValue

end
-- ==== Proof.lean ====
/-
  An LSTM cell over a batch of 8192 rows, 1024 features in and 1024 hidden units: the kernel against its reference.

  Both programs compute, for batch row `r` and hidden unit `j`,

    gate r n = (sum_k x[r,k] WX[n,k]) + (sum_k h[r,k] UH[n,k]) + B[n]        (n over the 4096 stacked gate columns)
    new_c    = logistic (gate r (1024 + j)) * c[r,j] + logistic (gate r j) * tanh (gate r (3072 + j))
    new_h    = logistic (gate r (2048 + j)) * tanh new_c

  where `WX`, `UH` stack the four input and the four recurrent weight matrices along their rows and `B` lays the
  four bias vectors end to end (`CellSpec`).  The kernel stacks them on the host, narrows the weights to bf16 (the
  identity on extended reals), and runs the cell body on sixteen blocks of 512 rows, each product a sum over the 1024
  contracted features; a row of the result reads that row of `x`, `h`, `c` only, so the blocks written back are the
  blocks of the whole-array result, and they tile it (`KernelIdealValue`).  The reference transposes the stacked
  weights and contracts rows against columns, which is the same sum; it spells the logistic function out as
  `1 / (1 + exp (-v))`, which is its definition on the extended reals (`RefValue`).  No law beyond reading both sides
  at an index is needed, and the finiteness of the inputs is never used.

  The three frames: each kernel program runs its six host operations, none of which writes an argument, then the one
  pipelined region, whose body only stores into its two result blocks (`KernelFrame`, `KernelIdealFrame`: one text at
  two instances); the reference is straight-line host code, and its frame is its run with the results dropped.
  The idealization rewrote nothing, so `preserves` is `True`.
-/
import proofs.«147784_j41059887349770_1_alg».proof.Defs
import proofs.«147784_j41059887349770_1_alg».proof.Proof.Gen.Kernel
import proofs.«147784_j41059887349770_1_alg».proof.Proof.Gen.KernelIdeal
import proofs.«147784_j41059887349770_1_alg».proof.Proof.Gen.ReferenceIdeal
import proofs.«147784_j41059887349770_1_alg».proof.Proof.Gen.Pre_finite_inputs
import proofs.«147784_j41059887349770_1_alg».proof.Proof.KernelFrame
import proofs.«147784_j41059887349770_1_alg».proof.Proof.KernelIdealFrame
import proofs.«147784_j41059887349770_1_alg».proof.Proof.KernelIdealValue
import proofs.«147784_j41059887349770_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_k : Cert.frame_Kernel := fun m ρ _ => Cert.Kernel.Cell.frame (F := Bits) m ρ

/-- So does its idealization. -/
theorem frame_ki : Cert.frame_KernelIdeal := fun m ρ _ => Cert.KernelIdeal.Cell.frame (F := Ideal) m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the fifteen arguments both programs end with the new hidden state and the new cell
    state at the specification's functions of those arguments. -/
theorem algebraic : Cert.algebraic_KernelIdeal_ReferenceIdeal := by
  intro m ρ m' ρ' _ hagree
  refine ⟨fun c => Cert.KernelIdeal.CellValue.GH m c, fun c => Cert.KernelIdeal.CellValue.GC m c,
    Cert.KernelIdeal.CellValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14⟩ := hagree c
    rw [Cert.ReferenceIdeal.Read.val_main_v38_eq, h0, h1, h2, h3, h4, h5, h6, h7, h8, h9, h10, h11, h12, h13, h14]
    funext i
    exact Cert.ReferenceIdeal.CellValue.refH _ _ _ _ _ _ _ _ _ _ _ _ _ _ _ i
  · obtain ⟨h0, h1, h2, h3, h4, h5, h6, h7, h8, h9, h10, h11, h12, h13, h14⟩ := hagree c
    rw [Cert.ReferenceIdeal.Read.val_main_v36_eq, h0, h1, h2, h3, h4, h5, h6, h7, h8, h9, h10, h11, h12, h13, h14]
    funext i
    exact Cert.ReferenceIdeal.CellValue.refC _ _ _ _ _ _ _ _ _ _ _ _ _ _ _ i

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
